-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x4096 : Shape := ⟨2, ![4096, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S32768x4096 .f32) (main_arg1 : FVec F S4096x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S32768x4096 : Shape := ⟨2, ![32768, 4096]⟩
abbrev S4096x4096 : Shape := ⟨2, ![4096, 4096]⟩
abbrev S1x4096 : Shape := ⟨2, ![1, 4096]⟩
abbrev S1024x4096 : Shape := ⟨2, ![1024, 4096]⟩
abbrev S4096 : Shape := ⟨1, ![4096]⟩
abbrev S32768x1 : Shape := ⟨2, ![32768, 1]⟩
abbrev S1024x1 : Shape := ⟨2, ![1024, 1]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096x4096, .f32⟩
  | .hbm, ⟨2, _⟩ => ⟨S1x4096, .f32⟩
  | .hbm, ⟨3, _⟩ => ⟨S32768x1, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1024x4096, .f32⟩
  | .local _ .vmem, ⟨4, _⟩ => ⟨S1024x4096, .f32⟩
  | .local _ .vmem, ⟨5, _⟩ => ⟨S1x4096, .f32⟩
  | .local _ .vmem, ⟨6, _⟩ => ⟨S1024x1, .f32⟩
  | .local _ .vmem, ⟨7, _⟩ => ⟨S1024x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S4096 : S1024x4096.Reduces [0] S4096
  shapeCasts_S4096_S1x4096 : S4096.ShapeCasts S1x4096
  broadcasts_S1x4096_S1024x4096 : S1x4096.Broadcasts S1024x4096
  reduces_S1024x4096_S1024 : S1024x4096.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S32768x4096.size a
  hwx1_0 : ∀ i : grid1.Coords, EltTy.bits .f32 = 32 ∨ (Rect.block (s := S32768x4096) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)

variable [Facts₀]

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x4096 : Shape := ⟨2, ![32768, 4096]⟩
abbrev S4096x4096 : Shape := ⟨2, ![4096, 4096]⟩
abbrev S_ : Shape := ⟨0, ![]⟩
abbrev S32768 : Shape := ⟨1, ![32768]⟩
abbrev S32768x1 : Shape := ⟨2, ![32768, 1]⟩

abbrev nBuf : Space → Nat
  | .hbm => 9
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x4096, .f32⟩
  | .hbm, ⟨2, _⟩ => ⟨S32768x4096, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S32768x4096_S32768_d1 : S32768x4096.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  dot_S32768x4096_S4096x4096_S32768x4096_1_1_0_0_n_n_wf : DotDims.WF S32768x4096 S4096x4096 S32768x4096 [1] [1] [0] [0] [] []

variable [Facts₀]

def dot_S32768x4096_S4096x4096_S32768x4096_1_1_0_0_n_n : DotDims S32768x4096 S4096x4096 S32768x4096 where
  lhsContracting := [1]
  rhsContracting := [1]
  lhsNonContracting := [0]
  rhsNonContracting := [0]
  lhsBatch := []
  rhsBatch := []
  wf := dot_S32768x4096_S4096x4096_S32768x4096_1_1_0_0_n_n_wf

class Facts : Prop extends Facts₀ where

variable [Facts]
-- ==== Proof.RowSumLaw.lean ====
/-
  The mathematics of this certificate, with no program in sight.

  For a matrix `x` of 32768 rows and a square matrix `W` of 4096 rows, both with 4096 columns, the value is
      out[b, 0] = (∑ h, ∑ k, x[b, k] · W[h, k]) · one,
  the row sums of the product `x · Wᵀ`, scaled by a literal `one` that both programs carry as the same word.

  One program forms the product first and sums its rows.  The other first sums the COLUMNS of `W`, four blocks of
  1024 rows one after the other into a running total that starts at zero, and then takes one inner product per
  row of `x` against that total.  The two agree because a sum of products with a common factor is the product with
  the sum: distributivity, which on the extended reals holds only away from the infinities.  So the law is proved
  for entries that are real numbers, by carrying both sides into ℝ.
-/
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset
import Mathlib.Data.EReal.Basic
import Mathlib.Logic.Equiv.Fin.Basic

noncomputable section

namespace Cert.RowSumLaw

open Idealize.ShloMosaic Idealize.ShloMosaic.ValueIdx

/-- Row `1024 · t + r` of a matrix of 4096 rows: row `r` of its `t`-th block of 1024 rows. -/
def blockRow (t : Fin 4) (r : Fin 1024) : Fin 4096 :=
  ⟨1024 * t.val + r.val, by have := t.isLt; have := r.isLt; omega⟩

theorem blockRow_val (t : Fin 4) (r : Fin 1024) : (blockRow t r).val = 1024 * t.val + r.val := rfl

/-- A sum over the 4096 rows is the sum over the four blocks of the sums over each block's 1024 rows. -/
theorem sum_blockRow {M : Type*} [AddCommMonoid M] (f : Fin 4096 → M) :
    ∑ h, f h = ∑ t : Fin 4, ∑ r : Fin 1024, f (blockRow t r) := by
  rw [← Fintype.sum_prod_type']
  refine (Fintype.sum_equiv (finProdFinEquiv (m := 4) (n := 1024)) (fun p => f (blockRow p.1 p.2)) f fun p => ?_).symm
  refine congrArg f (Fin.ext ?_)
  show 1024 * p.1.val + p.2.val = p.2.val + 1024 * p.1.val
  omega

/-- The inclusion of the reals in the extended reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW.  For real entries, the inner product of a row `x` with the column sums of `w`, those sums taken block
    by block into a running total from zero, is the sum over ALL rows `h` of `w` of the inner products of `x` with
    row `h`: the common factor `x k` moves across the sum over rows. -/
theorem dot_colsum_eq_sum_dot (x : Fin 4096 → EReal) (w : Fin 4096 → Fin 4096 → EReal)
    (hx : ∀ k, ∃ a : ℝ, x k = a) (hw : ∀ h k, ∃ a : ℝ, w h k = a) :
    ∑ k, x k * ((((0 + ∑ r, w (blockRow 0 r) k) + ∑ r, w (blockRow 1 r) k) + ∑ r, w (blockRow 2 r) k)
        + ∑ r, w (blockRow 3 r) k)
      = ∑ h, ∑ k, x k * w h k := by
  choose xr hxr using hx
  choose wr hwr using hw
  simp only [hxr, hwr, zero_add]
  simp only [← coe_sum, ← EReal.coe_add, ← EReal.coe_mul]
  refine congrArg _ ?_
  rw [sum_blockRow (fun h => ∑ k, xr k * wr h k), Fin.sum_univ_four]
  have e : ∀ t : Fin 4, ∑ r : Fin 1024, ∑ k, xr k * wr (blockRow t r) k
      = ∑ k, xr k * ∑ r : Fin 1024, wr (blockRow t r) k := fun t => by
    rw [Finset.sum_comm]; exact Finset.sum_congr rfl fun k _ => (Finset.mul_sum _ _ _).symm
  rw [e 0, e 1, e 2, e 3, ← Finset.sum_add_distrib, ← Finset.sum_add_distrib, ← Finset.sum_add_distrib]
  exact Finset.sum_congr rfl fun k _ => by ring

/-! ## The value, index by index -/

/-- The literal scale both programs multiply by, kept as its word: the same word on both sides is never evaluated. -/
abbrev one : EReal := Ideal.ofBits .f32 0x3F800000#32

/-- The value both programs compute: entry `(b, 0)` is the sum over the rows `h` of `W` of the inner products of
    row `b` of `x` with row `h` of `W`, times `one`. -/
def rowSums (x : (⟨2, ![32768, 4096]⟩ : Shape).Idx → EReal) (w : (⟨2, ![4096, 4096]⟩ : Shape).Idx → EReal) :
    (⟨2, ![32768, 1]⟩ : Shape).Idx → EReal :=
  fun i => (∑ h : Fin 4096, ∑ k : Fin 4096, x (ix2 (i 0) k) * w (ix2 h k)) * one

end Cert.RowSumLaw

end
-- ==== Proof.ColSum.lean ====
/-
  Region 0: the column sums of `W`.

  The first kernel walks the four blocks of 1024 rows of `W` and keeps ONE output block, a row of 4096 entries, whose
  index never moves: at the first block it stores zeros and then adds that block's column sums; at each later block it
  adds the block's column sums to what the block before left.  The row is written back once, after the last block.
  So the array it leaves is the running total
      (((0 + s₀) + s₁) + s₂) + s₃,        sₜ[k] = ∑ r < 1024, W[1024 t + r, k],
  entry by entry.  Stated here for whatever contents `V` the region is entered with.
-/
import proofs.«145811_j74010876445396_1_alg».proof.Proof.Gen.KernelIdeal.Frame
import proofs.«145811_j74010876445396_1_alg».proof.Proof.RowSumLaw
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ColSum

open Cert.KernelIdeal Cert.KernelIdeal.Gen Cert.KernelIdeal.Facts₀
open Idealize.ShloMosaic Idealize.ShloMosaic.TcCoe Idealize.SL.Sem Idealize.ShloMosaic.ValueIdx
open Idealize.ShloMosaic.Pipeline (Dat)
open Cert.RowSumLaw (blockRow)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At a later block the body leaves, over the running total `xo`, the total plus the block's column sums: the
    payload of its one covering store, whose loads read the whole buffers. -/
theorem out_B (c : Dev nD) (i : grid0.Coords) (a1 : Memref sig .tc .vmem S1024x4096 .f32) (h1 : a1.IsWhole)
    (a2 : Memref sig .tc .vmem S1x4096 .f32) (h2 : a2.IsWhole) (hc : ¬cond0_0 i) (x : Vec F S1024x4096 .f32)
    (xo : Vec F S1x4096 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S1x4096) hz,
    View.ld_unit_zero (S := S1024x4096) hz]

/-- At the first block the body stores zeros, reads them back, and leaves zero plus the block's column sums. -/
theorem out_A (c : Dev nD) (i : grid0.Coords) (a1 : Memref sig .tc .vmem S1024x4096 .f32) (h1 : a1.IsWhole)
    (a2 : Memref sig .tc .vmem S1x4096 .f32) (h2 : a2.IsWhole) (hc : cond0_0 i) (x : Vec F S1024x4096 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S1024x4096) hz]

/-- The running total after block `n`: zero plus the first block's column sums, then plus each later block's. -/
def total (c : Dev nD) : (n : ℕ) → n < cfg0.N → Vec F S1x4096 .f32
  | 0, h => k0_pay2 (k0_pay1 (F := F)) (iblk0 V c 0 ⟨0, h⟩)
  | n + 1, h => k0_pay2 (total c n (Nat.lt_of_succ_lt h)) (iblk0 V c 0 ⟨n + 1, h⟩)

/-- What the output's staging buffer holds after block `n` is the running total: by induction on the block. -/
theorem outsAt_eq (c : Dev nD) : ∀ (n : ℕ) (h : n < cfg0.N), outsAt0 V c n h = total V c n h
  | 0, h => (outsAt0_A V c ⟨0, h⟩ rfl).trans (out_A ..)
  | n + 1, h => by
    have hN : cfg0.N = 4 := N_0
    have hB : ¬(⟨n + 1, h⟩ : Fin cfg0.N).val % 4 = 0 := by dsimp only; omega
    rw [outsAt0_B V c ⟨n + 1, h⟩ hB, out_B]
    show k0_pay2 (outsAt0 V c n _) _ = k0_pay2 (total V c n _) _
    rw [outsAt_eq c n]

/-- The total after the last block, as contents of the one-row array: its one block is the whole array. -/
abbrev colSums (c : Dev nD) : Buf (Elt F) ((c : Thread nD τ).loc main_v0) :=
  total V c 3 (by rw [show cfg0.N = 4 from N_0]; decide)

/-- The one write-back, after the last block, writes that total. -/
theorem flushed_eq (c : Dev nD) (t : Fin cfg0.N) (hf : (cfg0.win 1).flush t = true) :
    (dat0 V c).flushed 1 t = ((cfg0.win 1).blk t).view.read (Elt F) (colSums V c) := by
  have hN : cfg0.N = 4 := N_0
  have h3 : t.val = 3 := by have := (flush0_1 t).mp hf; have := t.isLt; omega
  obtain rfl : t = t0_3 := Fin.ext h3
  show (cfg0.win 1).cut (grid0.coords t0_3) ((dat0 V c).after 1 t0_3) = _
  rw [after0_1, outsAt_eq]
  have hz' : (fun a => win0_1.index t0_3 a * main_v0.ty.shape.size a) = fun _ => 0 :=
    funext fun a => by fin_cases a <;> decide
  exact (Memref.read_access_unit_zero (Elt F) main_v0 hz' (fun a => by rw [congrFun hz' a]; simp) (colSums V c)).symm

/-- So the one-row array ends holding the total: the last block's write-back covers every entry. -/
theorem final (c : Dev nD) : (dat0 V c).arrAt 1 cfg0.N = colSums V c :=
  (dat0 V c).arrAt_eq_of_cover 1 (colSums V c) (flushed_eq V c) fun i =>
    ⟨t0_3, (flush0_1 t0_3).mpr rfl, by
      show i ∈ ((View.whole main_v0).slice (win0_1.rect t0_3)).set
      rw [View.set_slice_whole, Rect.mem_set_unit]
      intro a
      have h0 : (i 0 : Nat) < 1 := (i 0).isLt
      have h1 : (i 1 : Nat) < 4096 := (i 1).isLt
      match a with
      | ⟨0, _⟩ =>
        show win0_1.index t0_3 0 * win0_1.size 0 ≤ (i 0 : Nat)
          ∧ (i 0 : Nat) < win0_1.index t0_3 0 * win0_1.size 0 + win0_1.xsize (grid0.coords t0_3) 0
        rw [show win0_1.index t0_3 0 * win0_1.size 0 = 0 from by decide +kernel,
          show win0_1.xsize (grid0.coords t0_3) 0 = 1 from by decide +kernel]; omega
      | ⟨1, _⟩ =>
        show win0_1.index t0_3 1 * win0_1.size 1 ≤ (i 1 : Nat)
          ∧ (i 1 : Nat) < win0_1.index t0_3 1 * win0_1.size 1 + win0_1.xsize (grid0.coords t0_3) 1
        rw [show win0_1.index t0_3 1 * win0_1.size 1 = 0 from by decide +kernel,
          show win0_1.xsize (grid0.coords t0_3) 1 = 4096 from by decide +kernel]; omega⟩

end Cert.KernelIdeal.ColSum

end
-- ==== Proof.ColSumAt.lean ====
/-
  Region 0 read at an entry, on the extended reals.

  Entry `k` of the one-row array the first kernel leaves is
      (((0 + ∑ r, W[r, k]) + ∑ r, W[1024 + r, k]) + ∑ r, W[2048 + r, k]) + ∑ r, W[3072 + r, k],
  each `∑` over the 1024 rows of one block of the matrix `W` the region was entered with: a lane sum over a block's
  rows is a plain finite sum, the zero word is the number zero, and block `t` of `W` holds its rows `1024 t + r`.
-/
import proofs.«145811_j74010876445396_1_alg».proof.Proof.ColSum

set_option maxRecDepth 16384

noncomputable section

namespace Cert.KernelIdeal.ColSumAt

open Cert.KernelIdeal Cert.KernelIdeal.Gen Cert.KernelIdeal.Facts₀ Cert.KernelIdeal.ColSum
open Idealize.ShloMosaic Idealize.ShloMosaic.TcCoe Idealize.SL.Sem Idealize.ShloMosaic.ValueIdx
open Cert.RowSumLaw (blockRow)

variable (V : (c : Dev nD) → (b : Ref sig .tc) → Buf (Elt Ideal) ((c : Thread nD τ).loc b))

/-- The matrix the region is entered with, and its block of rows at a grid point, at their literal types. -/
abbrev warr (c : Dev nD) : FVec Ideal S4096x4096 .f32 := V c main_arg1
abbrev wblk (c : Dev nD) (t : Fin cfg0.N) : FVec Ideal S1024x4096 .f32 := iblk0 V c 0 t

/-- A block's column sum at column `k`: the sum over its 1024 rows. -/
theorem colSum_apply (x : FVec Ideal S1024x4096 .f32) (hφ : FKind.Formats .f32)
    (hacc : (0x00000000#32 : BitVec 32) = FKind.add.neutral .f32 hφ) (k : Fin 4096) :
    multiReduction .add [0] S4096 x 0x00000000#32 Facts₀.reduces_S1024x4096_S4096 hφ hacc (ix1 k)
      = ∑ r : Fin 1024, x (ix2 r k) :=
  (Ideal.multiReduction_add_single x _ Facts₀.reduces_S1024x4096_S4096 hφ hacc (ix1 k)).trans
    (Finset.sum_congr rfl fun r _ => congrArg x (funext fun a => Fin.ext (by
      match a with
      | ⟨0, _⟩ => rfl
      | ⟨1, _⟩ => rfl)))

/-- The accumulating store's payload at column `k`: what was there plus the block's column sum. -/
theorem pay2_apply (xo : FVec Ideal S1x4096 .f32) (x : FVec Ideal S1024x4096 .f32) (u : Fin 1) (k : Fin 4096) :
    k0_pay2 (F := Ideal) xo x (ix2 u k) = xo (ix2 u k) + ∑ r : Fin 1024, x (ix2 r k) := by
  unfold k0_pay2
  dsimp only
  rw [addf_apply, shapeCast_self, shapeCast_a_1a_apply]
  exact congrArg (xo (ix2 u k) + ·) (colSum_apply x _ _ k)

/-- The reset store's payload: zero everywhere. -/
theorem pay1_apply (u : Fin 1) (k : Fin 4096) : k0_pay1 (F := Ideal) (ix2 u k) = 0 :=
  Ideal.ofBits_zero_f32

/-- Where the matrix window sits at each block: block `t` of the rows, all the columns. -/
theorem idx_w : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block index as one of the four. -/
abbrev blk (t : Fin cfg0.N) : Fin 4 := ⟨t.val, lt_of_lt_of_eq t.isLt N_0⟩

/-- Block `t` of the matrix, read at `(r, k)`, is the matrix at row `1024 t + r`, column `k`. -/
theorem wblk_apply (c : Dev nD) (t : Fin cfg0.N) (r : Fin 1024) (k : Fin 4096) :
    wblk V c t (ix2 r k) = warr V c (ix2 (blockRow (blk t) r) k) := by
  obtain ⟨e0, e1⟩ := idx_w t
  unfold wblk warr iblk0
  rw [View.read_apply]
  show V c main_arg1 _ = V c main_arg1 _
  refine congrArg _ (funext fun a => Fin.ext ?_)
  match a with
  | ⟨0, _⟩ => show win0_0.index t 0 * 1024 + 1 * r.val = 1024 * t.val + r.val; rw [e0]; omega
  | ⟨1, _⟩ => show win0_0.index t 1 * 4096 + 1 * k.val = k.val; rw [e1]; omega

/-- The running total after the first block, at column `k`. -/
theorem total_zero (c : Dev nD) (h : 0 < cfg0.N) (u : Fin 1) (k : Fin 4096) :
    (total V c 0 h : FVec Ideal S1x4096 .f32) (ix2 u k)
      = 0 + ∑ r : Fin 1024, warr V c (ix2 (blockRow (blk ⟨0, h⟩) r) k) := by
  show k0_pay2 (F := Ideal) (k0_pay1 (F := Ideal)) (wblk V c ⟨0, h⟩) (ix2 u k) = _
  refine (pay2_apply (k0_pay1 (F := Ideal)) (wblk V c ⟨0, h⟩) u k).trans ?_
  rw [pay1_apply]
  exact congrArg (fun z : EReal => 0 + z) (Finset.sum_congr rfl fun r _ => wblk_apply V c ⟨0, h⟩ r k)

/-- The running total after a later block, at column `k`: the one before plus this block's column sum. -/
theorem total_succ (c : Dev nD) (n : ℕ) (h : n + 1 < cfg0.N) (u : Fin 1) (k : Fin 4096) :
    (total V c (n + 1) h : FVec Ideal S1x4096 .f32) (ix2 u k)
      = (total V c n (Nat.lt_of_succ_lt h) : FVec Ideal S1x4096 .f32) (ix2 u k)
        + ∑ r : Fin 1024, warr V c (ix2 (blockRow (blk ⟨n + 1, h⟩) r) k) := by
  show k0_pay2 (F := Ideal) (total V c n (Nat.lt_of_succ_lt h)) (wblk V c ⟨n + 1, h⟩) (ix2 u k) = _
  refine (pay2_apply (total V c n (Nat.lt_of_succ_lt h)) (wblk V c ⟨n + 1, h⟩) u k).trans ?_
  exact congrArg (fun z : EReal => (total V c n (Nat.lt_of_succ_lt h) : FVec Ideal S1x4096 .f32) (ix2 u k) + z)
    (Finset.sum_congr rfl fun r _ => wblk_apply V c ⟨n + 1, h⟩ r k)

/-- Entry `k` of the array region 0 leaves: the four blocks' column sums added in order onto zero. -/
theorem colSums_apply (c : Dev nD) (u : Fin 1) (k : Fin 4096) :
    (colSums V c : FVec Ideal S1x4096 .f32) (ix2 u k)
      = (((0 + ∑ r : Fin 1024, warr V c (ix2 (blockRow 0 r) k)) + ∑ r : Fin 1024, warr V c (ix2 (blockRow 1 r) k))
          + ∑ r : Fin 1024, warr V c (ix2 (blockRow 2 r) k)) + ∑ r : Fin 1024, warr V c (ix2 (blockRow 3 r) k) := by
  show (total V c 3 _ : FVec Ideal S1x4096 .f32) (ix2 u k) = _
  rw [total_succ, total_succ, total_succ, total_zero]
  rfl

end Cert.KernelIdeal.ColSumAt

end
-- ==== Proof.LibColumnCast.lean ====
/-
  A vector laid out as one column, read at an index.

  A `vector.shape_cast` from `[a]` to `[a, 1]` — what a row sum with `keepdims` ends in — keeps entry `i` at `(i, 0)`:
  both have row-major position `i`.
-/
import Idealize.ShloMosaic.Lib.Pipeline.Value
import Idealize.ShloMosaic.Lib.ValueIdx

namespace Cert.LibColumnCast

open Idealize.ShloMosaic Idealize.ShloMosaic.ValueIdx

/-- A vector of `a` entries cast to one column `[a, 1]` reads, at `(i, u)`, the vector at `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.MatVec.lean ====
/-
  Region 1: one inner product per row of `x`.

  The second kernel walks the 32 blocks of 1024 rows of `x`; at each it multiplies every row of the block, entry by
  entry, with the one row `s` it was handed (the array region 0 left), sums each row's products over the 4096
  columns, scales by the literal `one`, and writes the 1024 results back as block `t` of a one-column array.  The
  blocks tile that array, so after the run
      out[b, 0] = (∑ k, x[b, k] · s[0, k]) · one        for every row b,
  for whatever contents `V` the region is entered with.
-/
import proofs.«145811_j74010876445396_1_alg».proof.Proof.Gen.KernelIdeal.Frame
import proofs.«145811_j74010876445396_1_alg».proof.Proof.RowSumLaw
import proofs.«145811_j74010876445396_1_alg».proof.Proof.LibColumnCast
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.MatVec

open Cert.KernelIdeal Cert.KernelIdeal.Gen Cert.KernelIdeal.Facts₀
open Idealize.ShloMosaic Idealize.ShloMosaic.TcCoe Idealize.SL.Sem Idealize.ShloMosaic.ValueIdx
open Idealize.ShloMosaic.Pipeline (Dat)
open Cert.RowSumLaw (one)
open Cert.LibColumnCast (shapeCast_a_a1_apply)

variable (V : (c : Dev nD) → (b : Ref sig .tc) → Buf (Elt Ideal) ((c : Thread nD τ).loc b))

theorem hz : (![0, 0] : Fin 2 → Nat) = fun _ => 0 := funext fun a => by fin_cases a <;> rfl

/-- The body's one store covers its output block, so what it leaves there is its payload of the two blocks loaded. -/
theorem out_eq (x0 : Vec Ideal S1024x4096 .f32) (x1 : Vec Ideal S1x4096 .f32) : out1_2 x0 x1 = k1_pay1 x0 x1 := by
  unfold out1_2
  rw [View.canon_unit_zero hz]
  simp only [View.ld_unit_zero (S := S1024x4096) hz, View.ld_unit_zero (S := S1x4096) hz]

/-- A block's row sum at row `p`: the sum over its 4096 columns. -/
theorem rowSum_apply (x : FVec Ideal S1024x4096 .f32) (hφ : FKind.Formats .f32)
    (hacc : (0x00000000#32 : BitVec 32) = FKind.add.neutral .f32 hφ) (p : Fin 1024) :
    multiReduction .add [1] S1024 x 0x00000000#32 Facts₀.reduces_S1024x4096_S1024 hφ hacc (ix1 p)
      = ∑ k : Fin 4096, x (ix2 p k) :=
  (Ideal.multiReduction_add_single x _ Facts₀.reduces_S1024x4096_S1024 hφ hacc (ix1 p)).trans
    (Finset.sum_congr rfl fun k _ => congrArg x (funext fun a => Fin.ext (by
      match a with
      | ⟨0, _⟩ => rfl
      | ⟨1, _⟩ => rfl)))

/-- The payload at row `p` of the block: the inner product of that row with the one row `s`, times `one`. -/
theorem pay_apply (x0 : FVec Ideal S1024x4096 .f32) (x1 : FVec Ideal S1x4096 .f32) (p : Fin 1024) (u : Fin 1) :
    k1_pay1 (F := Ideal) x0 x1 (ix2 p u) = (∑ k : Fin 4096, x0 (ix2 p k) * x1 (ix2 (0 : Fin 1) k)) * one := by
  unfold k1_pay1
  dsimp only
  rw [mulf_apply, shapeCast_a_a1_apply, shapeCast_self]
  refine congrArg₂ (· * ·) ((rowSum_apply _ _ _ p).trans (Finset.sum_congr rfl fun k _ => ?_)) rfl
  rw [mulf_apply, broadcastTo_1b_ab_apply]

/-- Where the windows sit at each block of rows: `x`'s and the output's at block `t` of the rows, the one row fixed. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- Row `1024 t + p` of an array of 32768 rows. -/
abbrev rowOf (t : Fin cfg1.N) (p : Fin 1024) : Fin 32768 :=
  ⟨1024 * t.val + p.val, by have := lt_of_lt_of_eq t.isLt N_1; have := p.isLt; omega⟩

/-- Block `t` of `x`, read at `(p, k)`, is `x` at row `1024 t + p`, column `k`. -/
theorem xblk_apply (c : Dev nD) (t : Fin cfg1.N) (p : Fin 1024) (k : Fin 4096) :
    (iblk1 V c 0 t : FVec Ideal S1024x4096 .f32) (ix2 p k) = V c main_arg0 (ix2 (rowOf t p) k) := by
  obtain ⟨e0, e1, -⟩ := idx_facts t
  unfold iblk1
  rw [View.read_apply]
  show V c main_arg0 _ = V c main_arg0 _
  refine congrArg _ (funext fun a => Fin.ext ?_)
  match a with
  | ⟨0, _⟩ => show win1_0.index t 0 * 1024 + 1 * p.val = 1024 * t.val + p.val; rw [e0]; omega
  | ⟨1, _⟩ => show win1_0.index t 1 * 4096 + 1 * k.val = k.val; rw [e1]; omega

/-- The one-row window's block is the whole one-row array. -/
theorem sblk_apply (c : Dev nD) (t : Fin cfg1.N) (k : Fin 4096) :
    (iblk1 V c 1 t : FVec Ideal S1x4096 .f32) (ix2 (0 : Fin 1) k) = V c main_v0 (ix2 (0 : Fin 1) k) := by
  obtain ⟨-, -, e2, e3, -⟩ := idx_facts t
  unfold iblk1
  rw [View.read_apply]
  show V c main_v0 _ = V c main_v0 _
  refine congrArg _ (funext fun a => Fin.ext ?_)
  match a with
  | ⟨0, _⟩ => show win1_1.index t 0 * 1 + 1 * 0 = 0; rw [e2]
  | ⟨1, _⟩ => show win1_1.index t 1 * 4096 + 1 * k.val = k.val; rw [e3]; omega

/-- The value of the whole one-column array: row `b` holds the inner product of row `b` of `x` with the one row `s`,
    times `one`. -/
def dots (x : S32768x4096.Idx → EReal) (s : S1x4096.Idx → EReal) : S32768x1.Idx → EReal :=
  fun i => (∑ k : Fin 4096, x (ix2 (i 0) k) * s (ix2 (0 : Fin 1) k)) * one

/-- What block `t` writes back is block `t` of that array. -/
theorem flushed_eq (c : Dev nD) (t : Fin cfg1.N) :
    (dat1 V c).flushed 2 t = ((cfg1.win 2).blk t).view.read (Elt Ideal) (dots (V c main_arg0) (V c main_v0)) := by
  obtain ⟨-, -, -, -, e4, e5⟩ := idx_facts t
  show (cfg1.win 2).cut (grid1.coords t) ((dat1 V c).after 2 t) = _
  rw [after1_2, out_eq]
  funext j
  obtain ⟨p, u, rfl⟩ : ∃ (p : Fin 1024) (u : Fin 1), j = ix2 p u := ⟨j 0, j 1, eq_ix2 j⟩
  show k1_pay1 (F := Ideal) (iblk1 V c 0 t) (iblk1 V c 1 t) (ix2 p u)
    = dots (V c main_arg0) (V c main_v0) (((cfg1.win 2).blk t).view.emb (ix2 p u))
  refine (pay_apply (iblk1 V c 0 t) (iblk1 V c 1 t) p u).trans ?_
  unfold dots
  have hrow : (((cfg1.win 2).blk t).view.emb (ix2 p u)) 0 = rowOf t p :=
    Fin.ext (show win1_2.index t 0 * 1024 + 1 * p.val = 1024 * t.val + p.val by rw [e4]; omega)
  rw [hrow]
  exact congrArg (· * one) (Finset.sum_congr rfl fun k _ => by rw [xblk_apply, sblk_apply])

/-- An index of the array is in block `t` iff each coordinate is in the block's range on its axis. -/
theorem mem_blk (t : Fin cfg1.N) (i : S32768x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v1).slice (win1_2.rect t)).set ↔ _
  rw [View.set_slice_whole, Rect.mem_set_unit]
  exact Iff.rfl

/-- So the one-column array ends at `dots`: row `b` is written by block `b / 1024`. -/
theorem final (c : Dev nD) : (dat1 V c).arrAt 2 cfg1.N = dots (V c main_arg0) (V c main_v0) :=
  (dat1 V c).arrAt_eq_of_cover 2 (dots (V c main_arg0) (V c main_v0)) (fun t _ => flushed_eq V c t) fun i => by
    have hi0 : (i 0).val < 32768 := (i 0).isLt
    have hi1 : (i 1).val < 1 := (i 1).isLt
    have hN : cfg1.N = 32 := N_1
    let t : Fin cfg1.N := ⟨(i 0).val / 1024, by rw [hN]; omega⟩
    obtain ⟨-, -, -, -, e4, e5⟩ := idx_facts t
    have e4' : win1_2.index t (0 : Fin 2) = (i 0).val / 1024 := e4
    refine ⟨t, flush1_2 t, ?_⟩
    rw [mem_blk]
    intro a
    match a with
    | ⟨0, _⟩ =>
      show win1_2.index t (0 : Fin 2) * 1024 ≤ (i 0).val ∧ (i 0).val < win1_2.index t (0 : Fin 2) * 1024 + 1024
      omega
    | ⟨1, _⟩ =>
      show win1_2.index t (1 : Fin 2) * 1 ≤ (i 1).val ∧ (i 1).val < win1_2.index t (1 : Fin 2) * 1 + 1
      omega

end Cert.KernelIdeal.MatVec

end
-- ==== Proof.KernelValue.lean ====
/-
  The kernel's result, as one function of its two arguments.

  Region 1 is entered with `x` as launched (region 0 does not touch it) and with the one-row array at what region 0
  left: the column sums of `W`, block by block onto zero.  So row `b` of the result is the inner product of row `b`
  of `x` with those column sums, times `one`; and for real entries that is the sum over ALL rows `h` of `W` of the
  inner products with row `h` (the law): the row sums of the product.
-/
import proofs.«145811_j74010876445396_1_alg».proof.Proof.RunValue
import proofs.«145811_j74010876445396_1_alg».proof.Proof.ColSumAt
import proofs.«145811_j74010876445396_1_alg».proof.Proof.MatVec

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Cert.RowSumLaw (rowSums one dot_colsum_eq_sum_dot)

variable (m : (ℓ : Loc nD τ sig) → Buf (Elt Ideal) ℓ) (ρ : Dev nD → PrngReg)

/-- The two argument arrays as launched, at their literal types. -/
abbrev xarr (c : Dev nD) : FVec Ideal S32768x4096 .f32 := m ((c.tc : Thread nD τ).loc main_arg0)
abbrev warr (c : Dev nD) : FVec Ideal S4096x4096 .f32 := m ((c.tc : Thread nD τ).loc main_arg1)

/-- Region 1 finds `x` as launched: region 0 neither reads nor writes it. -/
theorem entry_x (c : Dev nD) : V1 m ρ c main_arg0 = xarr m c :=
  (W1_of_ne m ρ c main_arg0 (by decide)).trans rfl

/-- Region 1 finds the one-row array at region 0's running total after the last block. -/
theorem entry_s (c : Dev nD) : V1 m ρ c main_v0 = ColSum.colSums (V0 m ρ) c :=
  (W1_arr m ρ c 1).trans (ColSum.final (V0 m ρ) c)

/-- The result array after the run, for real entries: the row sums of the product. -/
theorem result_eq (c : Dev nD) (hx : ∀ i, ∃ a : ℝ, xarr m c i = a) (hw : ∀ i, ∃ a : ℝ, warr m c i = a) :
    W2 m ρ c (Proc.devRef .tc main_v1) = rowSums (xarr m c) (warr m c) := by
  refine (W2_arr m ρ c 2).trans ((MatVec.final (V1 m ρ) c).trans ?_)
  rw [entry_x, entry_s]
  funext i
  unfold MatVec.dots rowSums
  refine congrArg (fun z : EReal => z * one) ?_
  have law := dot_colsum_eq_sum_dot (fun k => xarr m c (ix2 (i 0) k)) (fun h k => warr m c (ix2 h k))
    (fun k => hx _) (fun h k => hw _)
  refine Eq.trans ?_ law
  exact Finset.sum_congr rfl fun k _ =>
    congrArg (fun z : EReal => xarr m c (ix2 (i 0) k) * z) (ColSumAt.colSums_apply (V0 m ρ) c 0 k)

end Cert.KernelIdeal.KernelValue

end
-- ==== Proof.RefSide.lean ====
/-
  The reference side: the host program's result IS the row sums of the product.

  The reference forms `x · Wᵀ` (entry `(b, h)` the inner product of row `b` of `x` with row `h` of `W`), sums each row
  of it over `h` from the zero word, multiplies by the word `one`, and lays the 32768 results out as one column.  Read
  one operation at a time that is `rowSums` to the letter; the zero word is the number zero.
-/
import proofs.«145811_j74010876445396_1_alg».proof.Defs
import proofs.«145811_j74010876445396_1_alg».proof.Proof.Gen.ReferenceIdeal.Run
import proofs.«145811_j74010876445396_1_alg».proof.Proof.Gen.ReferenceIdeal.Read
import proofs.«145811_j74010876445396_1_alg».proof.Proof.RowSumLaw

noncomputable section

namespace Cert.ReferenceIdeal.RefSide

open Cert.ReferenceIdeal Cert.ReferenceIdeal.Gen Cert.ReferenceIdeal.Read
open Idealize.ShloMosaic Idealize.ShloMosaic.ValueIdx
open Cert.RowSumLaw (rowSums one)

/-- The reference's last stage, entry by entry, is `rowSums` of its two arguments. -/
theorem ref_eq (x : FVec Ideal S32768x4096 .f32) (w : FVec Ideal S4096x4096 .f32) :
    val_main_v4 (F := Ideal) x w = rowSums x w := by
  funext i
  rw [val_main_v4_apply, val_main_v3_apply, val_main_v1_apply, val_main_v2_apply, val_main_cst_0_apply,
    val_main_cst_apply]
  simp only [val_main_v0_apply]
  unfold rowSums
  simp only [Ideal.mulf_def, Ideal.ofBits_def, Ideal.ofBits_zero_f32, zero_add]
  refine congrArg (fun z : EReal => z * one) (Finset.sum_congr rfl fun h _ => Finset.sum_congr rfl fun k _ => ?_)
  refine congrArg₂ (fun a b : EReal => a * b) (congrArg x (funext fun a => Fin.ext ?_))
    (congrArg w (funext fun a => Fin.ext ?_))
  · match a with
    | ⟨0, _⟩ => rfl
    | ⟨1, _⟩ => rfl
  · match a with
    | ⟨0, _⟩ => rfl
    | ⟨1, _⟩ => rfl

end Cert.ReferenceIdeal.RefSide

end
-- ==== Proof.FiniteEntries.lean ====
/-
  What the precondition says, entry by entry: every entry of `x` and of `W` is a real number.

  The precondition is `all (|x| < +inf) ∧ all (|W| < +inf)`.  An extended real whose absolute value is below `+inf`
  is neither infinity, so it is (the inclusion of) a real number: exactly what distributivity needs.
-/
import proofs.«145811_j74010876445396_1_alg».proof.Pre_finite_inputs
import proofs.«145811_j74010876445396_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.FiniteEntries

open Cert.Pre_finite_inputs Cert.Pre_finite_inputs.Facts Idealize.ShloMosaic

instance : Subsingleton S_.Idx := ⟨fun a b => funext fun d => d.elim0⟩

/-- The word the precondition compares against denotes `+inf`. -/
theorem ofBits_inf : Ideal.ofBits .f32 0x7F800000#32 = (⊤ : EReal) := by simp [Ideal.ofBits, Ideal.ieee]

/-- An extended real with `|x| < +inf` is a real number. -/
theorem real_of_abs_lt_top (x : EReal) (h : Ideal.cmp .olt (max x (-x)) (⊤ : EReal) = 1#1) : ∃ a : ℝ, x = a := by
  induction x using EReal.rec with
  | bot => simp [Ideal.cmp] at h
  | top => simp [Ideal.cmp] at h
  | coe r => exact ⟨r, rfl⟩

/-- The precondition, read: all entries of both arrays are real numbers. -/
theorem entries_real (x : FVec Ideal S32768x4096 .f32) (w : FVec Ideal S4096x4096 .f32)
    (h : fn (F := Ideal) x w = fun _ => 1#1) :
    (∀ i, ∃ a : ℝ, x i = a) ∧ (∀ i, ∃ a : ℝ, w i = a) := by
  have h0 := congrFun h ValueIdx.ix0
  dsimp only [fn] at h0
  obtain ⟨hx, hw⟩ := IntOp.andi_eq_one.1 h0
  refine ⟨fun i => ?_, fun i => ?_⟩
  · have e := Host.reduce_andi_all _ _ _ _ _ hx i
    have e' : Ideal.cmp .olt (max (x i) (-(x i))) (Ideal.ofBits .f32 0x7F800000#32) = 1#1 := e
    rw [ofBits_inf] at e'
    exact real_of_abs_lt_top _ e'
  · have e := Host.reduce_andi_all _ _ _ _ _ hw i
    have e' : Ideal.cmp .olt (max (w i) (-(w i))) (Ideal.ofBits .f32 0x7F800000#32) = 1#1 := e
    rw [ofBits_inf] at e'
    exact real_of_abs_lt_top _ e'

end Cert.Pre_finite_inputs.FiniteEntries

end
-- ==== Proof.lean ====
/-
  The certificate: a matrix-vector product against column sums is the row sum of a matrix product.

  The kernel computes `out[b] = (∑ k, x[b, k] · s[k]) · one` with `s[k] = ∑ h, W[h, k]` accumulated over four blocks of
  rows of `W` by a first kernel; the reference computes `out[b] = (∑ h, ∑ k, x[b, k] · W[h, k]) · one`, the row sums of
  `x · Wᵀ`.  Under the precondition every entry is a real number, so the factor `x[b, k]` moves across the sum over
  `h` and the two are equal (Proof/RowSumLaw.lean).  Both programs' frames are their runs; the idealization rewrote
  nothing, so `preserves` has nothing to state.
-/
import proofs.«145811_j74010876445396_1_alg».proof.Defs
import proofs.«145811_j74010876445396_1_alg».proof.Proof.Gen.Kernel
import proofs.«145811_j74010876445396_1_alg».proof.Proof.Gen.Kernel.Skeleton
import proofs.«145811_j74010876445396_1_alg».proof.Proof.Gen.Kernel.Launch
import proofs.«145811_j74010876445396_1_alg».proof.Proof.Gen.Kernel.Points
import proofs.«145811_j74010876445396_1_alg».proof.Proof.Gen.Kernel.Frame
import proofs.«145811_j74010876445396_1_alg».proof.Proof.Gen.KernelIdeal
import proofs.«145811_j74010876445396_1_alg».proof.Proof.Gen.KernelIdeal.Skeleton
import proofs.«145811_j74010876445396_1_alg».proof.Proof.Gen.KernelIdeal.Launch
import proofs.«145811_j74010876445396_1_alg».proof.Proof.Gen.KernelIdeal.Points
import proofs.«145811_j74010876445396_1_alg».proof.Proof.Gen.KernelIdeal.Frame
import proofs.«145811_j74010876445396_1_alg».proof.Proof.Gen.ReferenceIdeal
import proofs.«145811_j74010876445396_1_alg».proof.Proof.Gen.Pre_finite_inputs
import proofs.«145811_j74010876445396_1_alg».proof.Proof.KernelValue
import proofs.«145811_j74010876445396_1_alg».proof.Proof.RefSide
import proofs.«145811_j74010876445396_1_alg».proof.Proof.FiniteEntries
import Idealize.ShloMosaic.Adequacy
import Idealize.ShloMosaic.Init

noncomputable section

namespace Cert.Proof

open Idealize.ShloMosaic Idealize.SL.Sem
open Cert.RowSumLaw (rowSums)

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the row sums of the product of the arguments they agree on: the kernel by its two regions
    and the law for real entries, the reference operation by operation. -/
theorem algebraic : Cert.algebraic_KernelIdeal_ReferenceIdeal := by
  intro m ρ m' ρ' hpre hagree
  have hfin := fun c => Cert.Pre_finite_inputs.FiniteEntries.entries_real _ _ (hpre c)
  refine ⟨fun c => rowSums (Cert.KernelIdeal.KernelValue.xarr m c) (Cert.KernelIdeal.KernelValue.warr m c), ?_, ?_⟩
  · exact (θ_run Cert.KernelIdeal.defs _ _).mono
      (fun r h c => ⟨(h c).1.trans (Cert.KernelIdeal.KernelValue.result_eq m ρ c (hfin c).1 (hfin c).2), (h c).2.1, (h c).2.2⟩)
      (Cert.KernelIdeal.RunValue.run_value m ρ)
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v4_eq, Cert.ReferenceIdeal.RefSide.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
